-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S8000x128 : Shape := ⟨2, ![8000, 128]⟩
abbrev S8000x1 : Shape := ⟨2, ![8000, 1]⟩
abbrev S50000 : Shape := ⟨1, ![50000]⟩
abbrev S50000x1 : Shape := ⟨2, ![50000, 1]⟩

abbrev nBuf : Space → Nat
  | .hbm => 39
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S50000x128, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S8000x128, .f32⟩
  | .local _ .vmem, ⟨10, _⟩ => ⟨S8000x128, .f32⟩
  | .local _ .vmem, ⟨11, _⟩ => ⟨S8000x1, .f32⟩
  | .local _ .vmem, ⟨12, _⟩ => ⟨S8000x1, .f32⟩
  | .local _ .vmem, ⟨13, _⟩ => ⟨S8000x128, .f32⟩
  | .local _ .vmem, ⟨14, _⟩ => ⟨S8000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  shapeCasts_S800000_S800000x1 : S800000.ShapeCasts S800000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Boundaries.lean ====
/-
  The contents of the kernel program's buffers at the boundaries between its host stretches and its two
  regions, traced from the result back to the launch.

  After the last stretch the result is one fixed function, `aggregate`, of three arrays: the second
  output of the first region (the node's own transformed features), the output of the second region (the
  per-edge messages) and the destination indices.  `aggregate` sums the messages into their destination
  rows, divides each row by the larger of its in-degree and one, and adds the own features; it is the
  same chain of host operations in both programs and is never opened.

  The second region reads the gather of the first region's first output at the (wrapped) source indices,
  and the edge weights reshaped to a column; the first region reads the features, the two transposed
  weight matrices and the bias.  No stretch and no region writes an argument.
-/
import proofs.«123658_j10264971837830_1_alg».proof.Proof.Gen.KernelIdeal.Frame
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem
open Idealize.ShloMosaic.Pipeline (Dat)

variable {F : FTy → Type} [FloatOps F]

/-- Messages summed into their destination rows, each row divided by the larger of its in-degree and one,
    plus the node's own term. -/
def aggregate (selfOut : (⟨S50000x128, .f32⟩ : BufTy).Contents (Elt F)) (msg : (⟨S800000x128, .f32⟩ : BufTy).Contents (Elt F))
    (dst : (⟨S800000, .i32⟩ : BufTy).Contents (Elt F)) : (⟨S50000x128, .f32⟩ : BufTy).Contents (Elt F) :=
  addf selfOut (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) msg) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))))))

/-- The source indices as the gather takes them: a negative index wrapped once around the node count, as
    a column. -/
def wrapped (src : (⟨S800000, .i32⟩ : BufTy).Contents (Elt F)) : (⟨S800000x1, .i32⟩ : BufTy).Contents (Elt F) :=
  (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))

variable (m : (ℓ : Loc nD τ sig) → Buf (Elt F) ℓ) (ρ : Dev nD → PrngReg)

/-! ## After the last stretch -/

/-- The result buffer at the last boundary is `aggregate` of three buffers of the boundary before. -/
theorem result_last (c : Dev nD) :
    W5 m ρ c (Proc.devRef .tc main_v24)
      = aggregate (W4 m ρ c (Proc.devRef .tc main_v2_1)) (W4 m ρ c (Proc.devRef .tc main_v11)) (W4 m ρ c (Proc.devRef .tc main_arg2)) := by
  show StableHlo.after hostOps2 (W4 m ρ c) (Proc.devRef .tc main_v24) = _
  generalize W4 m ρ c = X
  after_results
  rfl

/-! ## At the second region's exit -/

/-- The messages are the second region's output array. -/
theorem msg_exit (c : Dev nD) : W4 m ρ c (Proc.devRef .tc main_v11) = (dat1 (V3 m ρ) c).arrAt 2 cfg1.N :=
  W4_arr m ρ c 2

/-- The node's own term is still the first region's second output array: nothing in between writes it. -/
theorem self_exit (c : Dev nD) : W4 m ρ c (Proc.devRef .tc main_v2_1) = (dat0 (V1 m ρ) c).arrAt 5 cfg0.N := by
  rw [W4_of_ne m ρ c main_v2_1 (by decide)]
  show StableHlo.after hostOps1 (W2 m ρ c) (Proc.devRef .tc main_v2_1) = _
  rw [← W2_arr m ρ c 5]
  generalize W2 m ρ c = X
  after_results

/-- An argument is as launched at the first region's exit. -/
theorem arg_at_first_exit (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) := by
  rw [W2_of_ne m ρ c b hb]
  exact h0

theorem src_first_exit (c : Dev nD) : W2 m ρ c (Proc.devRef .tc main_arg1) = m ((c : Thread nD τ).loc main_arg1) :=
  arg_at_first_exit m ρ c main_arg1 (by decide) (by generalize W0 m ρ c = X; after_results)

theorem weights_first_exit (c : Dev nD) : W2 m ρ c (Proc.devRef .tc main_arg3) = m ((c : Thread nD τ).loc main_arg3) :=
  arg_at_first_exit m ρ c main_arg3 (by decide) (by generalize W0 m ρ c = X; after_results)

/-- The destination indices are as launched at the second region's exit. -/
theorem dst_exit (c : Dev nD) : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  rw [← arg_at_first_exit m ρ c main_arg2 (by decide) (by generalize W0 m ρ c = X; after_results)]
  generalize W2 m ρ c = X
  after_results

/-! ## At the second region's entry -/

/-- The second region's first operand: the first region's first output array, gathered at the wrapped
    source indices. -/
theorem gathered_entry (c : Dev nD) :
    V3 m ρ c main_v9 = Host.gather gather_S50000x128_S800000x1_S800000x128_1_0_n_n_0_1_1128
      ((dat0 (V1 m ρ) c).arrAt 4 cfg0.N) (wrapped (m ((c : Thread nD τ).loc main_arg1))) := by
  show StableHlo.after hostOps1 (W2 m ρ c) (Proc.devRef .tc main_v9) = _
  rw [← W2_arr m ρ c 4, ← src_first_exit m ρ c]
  generalize W2 m ρ c = X
  after_results
  rfl

/-- Its second operand: the edge weights reshaped to a column. -/
theorem weights_entry (c : Dev nD) :
    V3 m ρ c main_v10 = shapeCast S800000x1 (m ((c : Thread nD τ).loc main_arg3)) shapeCasts_S800000_S800000x1 := by
  show StableHlo.after hostOps1 (W2 m ρ c) (Proc.devRef .tc main_v10) = _
  rw [← weights_first_exit m ρ c]
  generalize W2 m ρ c = X
  after_results
  rfl

/-! ## At the first region's entry -/

theorem feat_entry (c : Dev nD) : V1 m ρ c main_arg0 = m ((c : Thread nD τ).loc main_arg0) := by
  show StableHlo.after hostOps0 (W0 m ρ c) (Proc.devRef .tc main_arg0) = W0 m ρ c (Proc.devRef .tc main_arg0)
  generalize W0 m ρ c = X
  after_results

theorem bias_entry (c : Dev nD) : V1 m ρ c main_arg6 = m ((c : Thread nD τ).loc main_arg6) := by
  show StableHlo.after hostOps0 (W0 m ρ c) (Proc.devRef .tc main_arg6) = W0 m ρ c (Proc.devRef .tc main_arg6)
  generalize W0 m ρ c = X
  after_results

/-- The first matrix as the region reads it: the neighbour weights transposed. -/
theorem neigh_matrix_entry (c : Dev nD) :
    V1 m ρ c main_v0 = transpose S128x128 [1, 0] (m ((c : Thread nD τ).loc main_arg4)) transposes_S128x128_S128x128_1_0 := by
  show StableHlo.after hostOps0 (W0 m ρ c) (Proc.devRef .tc main_v0) = transpose S128x128 [1, 0] (W0 m ρ c (Proc.devRef .tc main_arg4)) transposes_S128x128_S128x128_1_0
  generalize W0 m ρ c = X
  after_results

/-- The second: the self weights transposed. -/
theorem self_matrix_entry (c : Dev nD) :
    V1 m ρ c main_v1 = transpose S128x128 [1, 0] (m ((c : Thread nD τ).loc main_arg5)) transposes_S128x128_S128x128_1_0 := by
  show StableHlo.after hostOps0 (W0 m ρ c) (Proc.devRef .tc main_v1) = transpose S128x128 [1, 0] (W0 m ρ c (Proc.devRef .tc main_arg5)) transposes_S128x128_S128x128_1_0
  generalize W0 m ρ c = X
  after_results

end Cert.KernelIdeal.Boundaries

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.Spec.lean ====
/-
  The arithmetic of one mean-aggregating message-passing layer, written as whole-array functions on the
  extended reals, over the literal shapes of this problem (50000 nodes and 800000 edges of 128 features).

  * `lin x w`      : every node's feature row times a 128 × 128 matrix, `∑ k, x (n, k) · w (k, d)`;
  * `linBias x w b`: the same with a bias row added, `lin x w (n, d) + b d`;
  * `scaleRows g w`: every edge's row scaled by that edge's weight, `g (e, d) · w (e, 0)`.

  Each is then identified with the host spelling of the same array: a `dot_general` contracting the
  features, that product plus a bias broadcast twice, and a product with an edge-weight column
  broadcast along the features.  Only commutativity-free rewriting is needed: the sums are literally the
  same sums, so no finiteness of the entries is used.
-/
import Idealize.ShloMosaic.PureOps.Ideal.Laws
import Idealize.ShloMosaic.Lib.ValueIdx
import Idealize.ShloMosaic.Lib.Pipeline.Value
import proofs.«123658_j10264971837830_1_alg».proof.Proof.LibPlainMatmul

noncomputable section

open scoped BigOperators

namespace Cert.Spec

open Idealize.ShloMosaic Idealize.ShloMosaic.ValueIdx

/-- Node features, and everything of that shape: 50000 rows of 128. -/
abbrev Nodes : Shape := ⟨2, ![50000, 128]⟩
/-- A square weight matrix on the features. -/
abbrev Weights : Shape := ⟨2, ![128, 128]⟩
/-- A bias, one entry per output feature. -/
abbrev Bias : Shape := ⟨1, ![128]⟩
/-- The same as one row. -/
abbrev BiasRow : Shape := ⟨2, ![1, 128]⟩
/-- One row of 128 per edge. -/
abbrev Edges : Shape := ⟨2, ![800000, 128]⟩
/-- One number per edge, as a column. -/
abbrev EdgeCol : Shape := ⟨2, ![800000, 1]⟩
/-- One number per edge. -/
abbrev EdgeVec : Shape := ⟨1, ![800000]⟩

/-- Every node's feature row times the matrix `w`. -/
def lin (x : FVec Ideal Nodes .f32) (w : FVec Ideal Weights .f32) : FVec Ideal Nodes .f32 :=
  fun i => ∑ k : Fin 128, x (ix2 (i 0) k) * w (ix2 k (i 1))

/-- The same with the bias `b` added to every row. -/
def linBias (x : FVec Ideal Nodes .f32) (w : FVec Ideal Weights .f32) (b : FVec Ideal Bias .f32) : FVec Ideal Nodes .f32 :=
  fun i => lin x w i + b (ix1 (i 1))

/-- Every edge's row scaled by the edge's own weight. -/
def scaleRows (g : FVec Ideal Edges .f32) (w : FVec Ideal EdgeCol .f32) : FVec Ideal Edges .f32 :=
  fun i => g i * w (ix2 (i 0) (0 : Fin 1))

theorem lin_apply (x : FVec Ideal Nodes .f32) (w : FVec Ideal Weights .f32) (n : Fin 50000) (d : Fin 128) :
    lin x w (ix2 n d) = ∑ k : Fin 128, x (ix2 n k) * w (ix2 k d) := rfl

/-- The host's `dot_general` of the features with a matrix, contracting the feature axis, is `lin`: at
    an entry both are the sum over the 128 contracted coordinates of the same products. -/
theorem dotGeneral_eq_lin (d : DotDims Nodes Weights Nodes) (hd : d = DotDims.plain 50000 128 128)
    (x : FVec Ideal Nodes .f32) (w : FVec Ideal Weights .f32) :
    Host.dotGeneral d none x w = lin x w := by
  subst hd
  funext i
  obtain ⟨n, c, rfl⟩ : ∃ (n : Fin 50000) (c : Fin 128), i = ix2 n c := ⟨i 0, i 1, eq_ix2 i⟩
  simp only [Host.dotGeneral]
  rw [Ideal.dotGeneral_apply, ← Equiv.sum_comp (contrEquiv1 (DotDims.plain 50000 128 128) 128 rfl rfl).symm, lin_apply]
  refine Finset.sum_congr rfl fun k _ => ?_
  rw [Cert.PlainMatmul.lhsIdx_plain, Cert.PlainMatmul.rhsIdx_plain]

/-- A bias row broadcast first to one row and then down all the nodes, read at an entry, is the bias at
    the entry's column. -/
theorem bias_broadcast_apply (b : FVec Ideal Bias .f32) (h1 : Bias.BroadcastsInDim BiasRow ![1])
    (h2 : BiasRow.BroadcastsInDim Nodes ![0, 1]) (n : Fin 50000) (d : Fin 128) :
    broadcastInDim Nodes ![0, 1] h2 (broadcastInDim BiasRow ![1] h1 b) (ix2 n d) = b (ix1 d) := by
  rw [broadcastInDim_apply ![0, 1] h2 _ (ix2 n d) (ix2 (0 : Fin 1) d)
    (fun a => by match a with | ⟨0, _⟩ => rfl | ⟨1, _⟩ => rfl)]
  exact broadcastInDim_apply ![1] h1 b (ix2 (0 : Fin 1) d) (ix1 d) (fun a => by match a with | ⟨0, _⟩ => rfl)

/-- The host's product plus the twice-broadcast bias is `linBias`. -/
theorem linBias_eq (x : FVec Ideal Nodes .f32) (w : FVec Ideal Weights .f32) (b : FVec Ideal Bias .f32)
    (h1 : Bias.BroadcastsInDim BiasRow ![1]) (h2 : BiasRow.BroadcastsInDim Nodes ![0, 1]) :
    linBias x w b = addf (lin x w) (broadcastInDim Nodes ![0, 1] h2 (broadcastInDim BiasRow ![1] h1 b)) := by
  funext i
  obtain ⟨n, d, rfl⟩ : ∃ (n : Fin 50000) (d : Fin 128), i = ix2 n d := ⟨i 0, i 1, eq_ix2 i⟩
  rw [addf_apply, bias_broadcast_apply]
  rfl

/-- An edge-weight vector broadcast to a column and then along the features, read at an entry, is the
    weight of the entry's edge. -/
theorem weight_broadcast_apply (ew : FVec Ideal EdgeVec .f32) (h1 : EdgeVec.BroadcastsInDim EdgeCol ![0])
    (h2 : EdgeCol.BroadcastsInDim Edges ![0, 1]) (e : Fin 800000) (d : Fin 128) :
    broadcastInDim Edges ![0, 1] h2 (broadcastInDim EdgeCol ![0] h1 ew) (ix2 e d) = ew (ix1 e) := by
  rw [broadcastInDim_apply ![0, 1] h2 _ (ix2 e d) (ix2 e (0 : Fin 1))
    (fun a => by match a with | ⟨0, _⟩ => rfl | ⟨1, _⟩ => rfl)]
  exact broadcastInDim_apply ![0] h1 ew (ix2 e (0 : Fin 1)) (ix1 e) (fun a => by match a with | ⟨0, _⟩ => rfl)

/-- The same vector reshaped to a column, read at an edge, is that edge's weight. -/
theorem weight_column_apply (ew : FVec Ideal EdgeVec .f32) (h : EdgeVec.ShapeCasts EdgeCol) (e : Fin 800000) :
    shapeCast EdgeCol ew h (ix2 e (0 : Fin 1)) = ew (ix1 e) :=
  shapeCast_apply ew h (ix2 e (0 : Fin 1)) (ix1 e) (by
    rw [Shape.rowMajor_val_one, Shape.rowMajor_val_two]
    show e.val = e.val * 1 + 0
    omega)

/-- Scaling the rows by the reshaped weight column is the host's product with the weights broadcast
    along the features. -/
theorem scaleRows_eq (g : FVec Ideal Edges .f32) (ew : FVec Ideal EdgeVec .f32) (h : EdgeVec.ShapeCasts EdgeCol)
    (h1 : EdgeVec.BroadcastsInDim EdgeCol ![0]) (h2 : EdgeCol.BroadcastsInDim Edges ![0, 1]) :
    scaleRows g (shapeCast EdgeCol ew h) = mulf g (broadcastInDim Edges ![0, 1] h2 (broadcastInDim EdgeCol ![0] h1 ew)) := by
  funext i
  obtain ⟨e, d, rfl⟩ : ∃ (e : Fin 800000) (d : Fin 128), i = ix2 e d := ⟨i 0, i 1, eq_ix2 i⟩
  rw [mulf_apply, weight_broadcast_apply]
  show g (ix2 e d) * shapeCast EdgeCol ew h (ix2 e (0 : Fin 1)) = _
  rw [weight_column_apply]

end Cert.Spec

end
-- ==== Proof.LinearRegion.lean ====
/-
  The first kernel region: ten grid points, each taking 5000 consecutive node rows and both (transposed)
  weight matrices whole, and writing the rows' products with each matrix; the second product with the bias
  row added.  Stated at ANY contents `V` the region is entered with: after the region the first output
  array is `lin` of the feature array and the first matrix, the second `linBias` of the features, the
  second matrix and the bias.

  A point's block of an output is rows `5000 t … 5000 t + 4999`, all 128 columns; an entry `(r, d)` of that
  block is the sum over `k` of the row's entry `k` times the matrix entry `(k, d)` (the rounding of the
  operands to a shorter format is the identity on the extended reals), which is the entry
  `(5000 t + r, d)` of `lin`.  The ten blocks tile the array: row `n` lies in block `n / 5000`.
-/
import proofs.«123658_j10264971837830_1_alg».proof.Proof.Gen.KernelIdeal.Frame
import proofs.«123658_j10264971837830_1_alg».proof.Proof.Spec
import Idealize.ShloMosaic.Lib.Pipeline.Value
import Idealize.ShloMosaic.Lib.ValueIdx

set_option maxRecDepth 16384

noncomputable section

open scoped BigOperators

namespace Cert.KernelIdeal.LinearRegion

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The block product's dimension numbers are those of a plain rows-by-columns product. -/
theorem dims_plain : dot_S5000x128_S128x128_S5000x128_1_0_0_1_n_n = DotDims.plain 5000 128 128 := rfl

/-! ## The two payloads at an entry -/

/-- The first store's value at `(r, d)`: row `r` of the loaded rows against column `d` of the loaded matrix. -/
theorem neigh_payload_apply (x0 : FVec Ideal S5000x128 .f32) (x1 : FVec Ideal S128x128 .f32) (r : Fin 5000) (d : Fin 128) :
    k0_pay2 (F := Ideal) x0 x1 (ix2 r d) = ∑ k : Fin 128, x0 (ix2 r k) * x1 (ix2 k d) := by
  unfold k0_pay2 k0_pay1
  show matmul (F := Ideal) dot_S5000x128_S128x128_S5000x128_1_0_0_1_n_n none (truncf .bf16 x0 bitsLt_bf16_f32)
      (truncf .bf16 (shapeCast S128x128 x1 shapeCasts_S128x128_S128x128) bitsLt_bf16_f32)
      (constant S5000x128 .f32 0x00000000#32) (ix2 r d) = _
  rw [dims_plain, shapeCast_self]
  exact Cert.PlainMatmul.matmul_plain_zero_apply _ _ none r d

/-- The bias vector as one row and then as 5000 rows, at `(r, d)`, is the bias at `d`. -/
theorem bias_rows_apply (x3 : FVec Ideal S128 .f32) (r : Fin 5000) (d : Fin 128) :
    broadcastTo S5000x128 (shapeCast S1x128 x3 shapeCasts_S128_S1x128) broadcasts_S1x128_S5000x128 (ix2 r d) = x3 (ix1 d) := by
  rw [broadcastTo_apply _ broadcasts_S1x128_S5000x128 (ix2 r d) (ix2 (0 : Fin 1) d)
    (fun a => by match a with | ⟨0, _⟩ => rfl | ⟨1, _⟩ => rfl)]
  exact shapeCast_apply x3 shapeCasts_S128_S1x128 (ix2 (0 : Fin 1) d) (ix1 d) (by
    rw [Shape.rowMajor_val_one, Shape.rowMajor_val_two]
    show d.val = 0 * 128 + d.val
    omega)

/-- The second store's value at `(r, d)`: the same product against the second matrix, plus the bias at `d`. -/
theorem self_payload_apply (x0 : FVec Ideal S5000x128 .f32) (x2 : FVec Ideal S128x128 .f32) (x3 : FVec Ideal S128 .f32)
    (r : Fin 5000) (d : Fin 128) :
    k0_pay3 (F := Ideal) x0 x2 x3 (ix2 r d) = (∑ k : Fin 128, x0 (ix2 r k) * x2 (ix2 k d)) + x3 (ix1 d) := by
  unfold k0_pay3 k0_pay1
  show addf (F := Ideal) (matmul (F := Ideal) dot_S5000x128_S128x128_S5000x128_1_0_0_1_n_n none (truncf .bf16 x0 bitsLt_bf16_f32)
      (truncf .bf16 (shapeCast S128x128 x2 shapeCasts_S128x128_S128x128) bitsLt_bf16_f32)
      (constant S5000x128 .f32 0x00000000#32))
      (broadcastTo S5000x128 (shapeCast S1x128 x3 shapeCasts_S128_S1x128) broadcasts_S1x128_S5000x128) (ix2 r d) = _
  rw [addf_apply, bias_rows_apply, dims_plain, shapeCast_self]
  exact congrArg (· + x3 (ix1 d)) (Cert.PlainMatmul.matmul_plain_zero_apply _ _ none r d)

/-- A block entry of the first output against `lin`: enough that the loaded rows are the array's rows at the
    entry's row and the loaded matrix is the whole matrix. -/
theorem neigh_entry (x : FVec Ideal Nodes .f32) (w : FVec Ideal Weights .f32)
    (x0 : FVec Ideal S5000x128 .f32) (x1 : FVec Ideal S128x128 .f32) (r : Fin 5000) (d : Fin 128) (n : Fin 50000)
    (h0 : ∀ k : Fin 128, x0 (ix2 r k) = x (ix2 n k)) (h1 : ∀ k : Fin 128, x1 (ix2 k d) = w (ix2 k d)) :
    k0_pay2 (F := Ideal) x0 x1 (ix2 r d) = lin x w (ix2 n d) := by
  rw [neigh_payload_apply, lin_apply]
  exact Finset.sum_congr rfl fun k _ => by rw [h0, h1]

/-- The same for the second output against `linBias`. -/
theorem self_entry (x : FVec Ideal Nodes .f32) (w : FVec Ideal Weights .f32) (b : FVec Ideal Bias .f32)
    (x0 : FVec Ideal S5000x128 .f32) (x2 : FVec Ideal S128x128 .f32) (x3 : FVec Ideal S128 .f32)
    (r : Fin 5000) (d : Fin 128) (n : Fin 50000)
    (h0 : ∀ k : Fin 128, x0 (ix2 r k) = x (ix2 n k)) (h2 : ∀ k : Fin 128, x2 (ix2 k d) = w (ix2 k d))
    (h3 : x3 (ix1 d) = b (ix1 d)) :
    k0_pay3 (F := Ideal) x0 x2 x3 (ix2 r d) = linBias x w b (ix2 n d) := by
  rw [self_payload_apply]
  show _ = lin x w (ix2 n d) + b (ix1 d)
  rw [lin_apply, h3]
  exact congrArg (· + b (ix1 d)) (Finset.sum_congr rfl fun k _ => by rw [h0, h2])

/-! ## Where the blocks sit -/

/-- The printed index maps over the ten points: the rows' window and both outputs' windows move together down
    the rows, every window stays at column block 0, the matrices and the bias stay at block 0. -/
theorem index_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (1 : Fin 2) = 0
    ∧ win0_5.index t (0 : Fin 2) = win0_4.index t (0 : Fin 2) ∧ win0_5.index t (1 : Fin 2) = 0
    ∧ win0_4.index t (0 : Fin 2) ≤ 9 :=
  (by decide +kernel : ∀ t : Fin grid0.N, _)

/-- Every row block is some point's. -/
theorem index_onto : ∀ q : Fin 10, ∃ t : Fin cfg0.N, win0_4.index t = ![q.val, 0] ∧ win0_5.index t = ![q.val, 0] :=
  (by decide +kernel : ∀ q : Fin 10, ∃ t : Fin grid0.N, win0_4.index t = ![q.val, 0] ∧ win0_5.index t = ![q.val, 0])

/-! ## What a point writes back -/

/-- Point `t` writes back, into the first output, block `t` of `lin` of the features and the first matrix. -/
theorem neigh_flushed (c : Dev nD) (t : Fin cfg0.N) :
    (dat0 V c).flushed 4 t = ((cfg0.win 4).blk t).view.read (Elt Ideal) (lin (V c main_arg0) (V c main_v0)) := by
  show (cfg0.win 4).cut (grid0.coords t) ((dat0 V c).after 4 t) = _
  rw [after0_4]
  unfold out0_4
  rw [View.canon_unit_zero origin2]
  simp only [View.ld_unit_zero (S := S5000x128) origin2, View.ld_unit_zero (S := S128x128) origin2]
  obtain ⟨e0, e1, e2, e3, e4, e5, e6, e7, e8, e9, e10⟩ := index_facts t
  funext j
  obtain ⟨r, d, rfl⟩ : ∃ (r : Fin 5000) (d : Fin 128), j = ix2 r d := ⟨j 0, j 1, eq_ix2 j⟩
  have hr : r.val < 5000 := r.isLt
  have hn : win0_4.index t (0 : Fin 2) * 5000 + r.val < 50000 := by omega
  have hemb : ((cfg0.win 4).blk t).view.emb (ix2 r d) = ix2 (⟨win0_4.index t (0 : Fin 2) * 5000 + r.val, hn⟩ : Fin 50000) d := by
    funext a; apply Fin.ext
    match a with
    | ⟨0, _⟩ => show win0_4.index t (0 : Fin 2) * 5000 + 1 * r.val = win0_4.index t (0 : Fin 2) * 5000 + r.val; omega
    | ⟨1, _⟩ => show win0_4.index t (1 : Fin 2) * 128 + 1 * d.val = d.val; omega
  show k0_pay2 (iblk0 V c 0 t) (iblk0 V c 1 t) (ix2 r d) = lin (V c main_arg0) (V c main_v0) (((cfg0.win 4).blk t).view.emb (ix2 r d))
  rw [hemb]
  refine neigh_entry (V c main_arg0) (V c main_v0) (iblk0 V c 0 t) (iblk0 V c 1 t) r d _ (fun k => ?_) (fun k => ?_)
  · show V c main_arg0 (((cfg0.win 0).blk t).view.emb (ix2 r k)) = V c main_arg0 _
    refine congrArg (V c main_arg0) (funext fun a => Fin.ext ?_)
    match a with
    | ⟨0, _⟩ => show win0_0.index t (0 : Fin 2) * 5000 + 1 * r.val = win0_4.index t (0 : Fin 2) * 5000 + r.val; omega
    | ⟨1, _⟩ => show win0_0.index t (1 : Fin 2) * 128 + 1 * k.val = k.val; omega
  · show V c main_v0 (((cfg0.win 1).blk t).view.emb (ix2 k d)) = V c main_v0 _
    refine congrArg (V c main_v0) (funext fun a => Fin.ext ?_)
    match a with
    | ⟨0, _⟩ => show win0_1.index t (0 : Fin 2) * 128 + 1 * k.val = k.val; omega
    | ⟨1, _⟩ => show win0_1.index t (1 : Fin 2) * 128 + 1 * d.val = d.val; omega

/-- Point `t` writes back, into the second output, block `t` of `linBias` of the features, the second matrix
    and the bias. -/
theorem self_flushed (c : Dev nD) (t : Fin cfg0.N) :
    (dat0 V c).flushed 5 t
      = ((cfg0.win 5).blk t).view.read (Elt Ideal) (linBias (V c main_arg0) (V c main_v1) (V c main_arg6)) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2,
    View.ld_unit_zero (S := S128) origin1]
  obtain ⟨e0, e1, e2, e3, e4, e5, e6, e7, e8, e9, e10⟩ := index_facts t
  funext j
  obtain ⟨r, d, rfl⟩ : ∃ (r : Fin 5000) (d : Fin 128), j = ix2 r d := ⟨j 0, j 1, eq_ix2 j⟩
  have hr : r.val < 5000 := r.isLt
  have hn : win0_4.index t (0 : Fin 2) * 5000 + r.val < 50000 := by omega
  have hemb : ((cfg0.win 5).blk t).view.emb (ix2 r d) = ix2 (⟨win0_4.index t (0 : Fin 2) * 5000 + r.val, hn⟩ : Fin 50000) d := by
    funext a; apply Fin.ext
    match a with
    | ⟨0, _⟩ => show win0_5.index t (0 : Fin 2) * 5000 + 1 * r.val = win0_4.index t (0 : Fin 2) * 5000 + r.val; omega
    | ⟨1, _⟩ => show win0_5.index t (1 : Fin 2) * 128 + 1 * d.val = d.val; omega
  show k0_pay3 (iblk0 V c 0 t) (iblk0 V c 2 t) (iblk0 V c 3 t) (ix2 r d)
    = linBias (V c main_arg0) (V c main_v1) (V c main_arg6) (((cfg0.win 5).blk t).view.emb (ix2 r d))
  rw [hemb]
  refine self_entry (V c main_arg0) (V c main_v1) (V c main_arg6) (iblk0 V c 0 t) (iblk0 V c 2 t) (iblk0 V c 3 t) r d _
    (fun k => ?_) (fun k => ?_) ?_
  · show V c main_arg0 (((cfg0.win 0).blk t).view.emb (ix2 r k)) = V c main_arg0 _
    refine congrArg (V c main_arg0) (funext fun a => Fin.ext ?_)
    match a with
    | ⟨0, _⟩ => show win0_0.index t (0 : Fin 2) * 5000 + 1 * r.val = win0_4.index t (0 : Fin 2) * 5000 + r.val; omega
    | ⟨1, _⟩ => show win0_0.index t (1 : Fin 2) * 128 + 1 * k.val = k.val; omega
  · show V c main_v1 (((cfg0.win 2).blk t).view.emb (ix2 k d)) = V c main_v1 _
    refine congrArg (V c main_v1) (funext fun a => Fin.ext ?_)
    match a with
    | ⟨0, _⟩ => show win0_2.index t (0 : Fin 2) * 128 + 1 * k.val = k.val; omega
    | ⟨1, _⟩ => show win0_2.index t (1 : Fin 2) * 128 + 1 * d.val = d.val; omega
  · show V c main_arg6 (((cfg0.win 3).blk t).view.emb (ix1 d)) = V c main_arg6 _
    refine congrArg (V c main_arg6) (funext fun a => Fin.ext ?_)
    match a with
    | ⟨0, _⟩ => show win0_3.index t (0 : Fin 1) * 128 + 1 * d.val = d.val; omega

/-! ## The blocks tile the arrays -/

/-- An index of the first output array is in point `t`'s block iff each coordinate is in the block's range. -/
theorem mem_neigh_block (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v2_0).slice (win0_4.rect t)).set ↔ _
  rw [View.set_slice_whole, Rect.mem_set_unit]
  exact Iff.rfl

/-- The same for the second output array. -/
theorem mem_self_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v2_1).slice (win0_5.rect t)).set ↔ _
  rw [View.set_slice_whole, Rect.mem_set_unit]
  exact Iff.rfl

/-- Row `n` of the first output lies in the block of point `n / 5000`, which is written back. -/
theorem neigh_cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht4, ht5⟩ := index_onto ⟨(i 0).val / 5000, by omega⟩
  have q0 : win0_4.index t (0 : Fin 2) = (i 0).val / 5000 := congrFun ht4 0
  have q1 : win0_4.index t (1 : Fin 2) = 0 := congrFun ht4 1
  refine ⟨t, flush0_4 t, ?_⟩
  rw [mem_neigh_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The same for the second output. -/
theorem self_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht4, ht5⟩ := index_onto ⟨(i 0).val / 5000, by omega⟩
  have q0 : win0_5.index t (0 : Fin 2) = (i 0).val / 5000 := congrFun ht5 0
  have q1 : win0_5.index t (1 : Fin 2) = 0 := congrFun ht5 1
  refine ⟨t, flush0_5 t, ?_⟩
  rw [mem_self_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The arrays after the region -/

/-- After the region the first output array is `lin` of the features and the first matrix as the region found them. -/
theorem neigh_final (c : Dev nD) : (dat0 V c).arrAt 4 cfg0.N = lin (V c main_arg0) (V c main_v0) :=
  (dat0 V c).arrAt_eq_of_cover 4 (lin (V c main_arg0) (V c main_v0)) (fun t _ => neigh_flushed V c t) neigh_cover

/-- … and the second is `linBias` of the features, the second matrix and the bias. -/
theorem self_final (c : Dev nD) :
    (dat0 V c).arrAt 5 cfg0.N = linBias (V c main_arg0) (V c main_v1) (V c main_arg6) :=
  (dat0 V c).arrAt_eq_of_cover 5 (linBias (V c main_arg0) (V c main_v1) (V c main_arg6))
    (fun t _ => self_flushed V c t) self_cover

end Cert.KernelIdeal.LinearRegion

end
-- ==== Proof.ScaleRegion.lean ====
/-
  The second kernel region: a hundred grid points, each taking 8000 consecutive edge rows and the same
  8000 entries of the edge-weight column, and writing each row scaled by its edge's weight.  Stated at ANY
  contents `V` the region is entered with: after the region the output array is `scaleRows` of the two
  operand arrays.

  An entry `(r, d)` of a point's block is the row entry times the column entry `(r, 0)` (the column
  broadcast along the features), which is entry `(8000 t + r, d)` of `scaleRows`.  The hundred blocks tile
  the array: edge `e` lies in block `e / 8000`.
-/
import proofs.«123658_j10264971837830_1_alg».proof.Proof.Gen.KernelIdeal.Frame
import proofs.«123658_j10264971837830_1_alg».proof.Proof.Spec
import Idealize.ShloMosaic.Lib.Pipeline.Value
import Idealize.ShloMosaic.Lib.ValueIdx

set_option maxRecDepth 16384

noncomputable section

namespace Cert.KernelIdeal.ScaleRegion

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-! ## The payload at an entry -/

/-- The loaded weight column broadcast along the features, at `(r, d)`, is the column at row `r`. -/
theorem weight_cols_apply (x1 : FVec Ideal S8000x1 .f32) (r : Fin 8000) (d : Fin 128) :
    broadcastTo S8000x128 (shapeCast S8000x1 x1 shapeCasts_S8000x1_S8000x1) broadcasts_S8000x1_S8000x128 (ix2 r d)
      = x1 (ix2 r (0 : Fin 1)) := by
  rw [shapeCast_self]
  exact broadcastTo_apply x1 broadcasts_S8000x1_S8000x128 (ix2 r d) (ix2 r (0 : Fin 1))
    (fun a => by match a with | ⟨0, _⟩ => rfl | ⟨1, _⟩ => rfl)

/-- The store's value at `(r, d)`: the row entry times the row's weight. -/
theorem msg_payload_apply (x0 : FVec Ideal S8000x128 .f32) (x1 : FVec Ideal S8000x1 .f32) (r : Fin 8000) (d : Fin 128) :
    k1_pay1 (F := Ideal) x0 x1 (ix2 r d) = x0 (ix2 r d) * x1 (ix2 r (0 : Fin 1)) := by
  unfold k1_pay1
  show mulf (F := Ideal) (shapeCast S8000x128 x0 shapeCasts_S8000x128_S8000x128)
      (broadcastTo S8000x128 (shapeCast S8000x1 x1 shapeCasts_S8000x1_S8000x1) broadcasts_S8000x1_S8000x128) (ix2 r d) = _
  rw [mulf_apply, weight_cols_apply, shapeCast_self]

/-- A block entry against `scaleRows`: enough that the loaded rows and the loaded column are the arrays' at the
    entry's edge. -/
theorem msg_entry (g : FVec Ideal Edges .f32) (w : FVec Ideal EdgeCol .f32)
    (x0 : FVec Ideal S8000x128 .f32) (x1 : FVec Ideal S8000x1 .f32) (r : Fin 8000) (d : Fin 128) (e : Fin 800000)
    (h0 : x0 (ix2 r d) = g (ix2 e d)) (h1 : x1 (ix2 r (0 : Fin 1)) = w (ix2 e (0 : Fin 1))) :
    k1_pay1 (F := Ideal) x0 x1 (ix2 r d) = scaleRows g w (ix2 e d) := by
  rw [msg_payload_apply, h0, h1]
  rfl

/-! ## Where the blocks sit -/

/-- The printed index maps over the hundred points: the three windows move together down the edges and stay at
    column block 0. -/
theorem index_facts : ∀ t : Fin cfg1.N,
    win1_0.index t (0 : Fin 2) = win1_2.index t (0 : Fin 2) ∧ win1_0.index t (1 : Fin 2) = 0
    ∧ win1_1.index t (0 : Fin 2) = win1_2.index t (0 : Fin 2) ∧ win1_1.index t (1 : Fin 2) = 0
    ∧ win1_2.index t (1 : Fin 2) = 0
    ∧ win1_2.index t (0 : Fin 2) ≤ 99 :=
  (by decide +kernel : ∀ t : Fin grid1.N, _)

/-- Every edge block is some point's. -/
theorem index_onto : ∀ q : Fin 100, ∃ t : Fin cfg1.N, win1_2.index t = ![q.val, 0] :=
  (by decide +kernel : ∀ q : Fin 100, ∃ t : Fin grid1.N, win1_2.index t = ![q.val, 0])

/-! ## What a point writes back -/

/-- Point `t` writes back block `t` of `scaleRows` of the two operand arrays. -/
theorem msg_flushed (c : Dev nD) (t : Fin cfg1.N) :
    (dat1 V c).flushed 2 t = ((cfg1.win 2).blk t).view.read (Elt Ideal) (scaleRows (V c main_v9) (V c main_v10)) := by
  show (cfg1.win 2).cut (grid1.coords t) ((dat1 V c).after 2 t) = _
  rw [after1_2]
  unfold out1_2
  rw [View.canon_unit_zero origin2]
  simp only [View.ld_unit_zero (S := S8000x128) origin2, View.ld_unit_zero (S := S8000x1) origin2]
  obtain ⟨e0, e1, e2, e3, e4, e5⟩ := index_facts t
  funext j
  obtain ⟨r, d, rfl⟩ : ∃ (r : Fin 8000) (d : Fin 128), j = ix2 r d := ⟨j 0, j 1, eq_ix2 j⟩
  have hr : r.val < 8000 := r.isLt
  have hn : win1_2.index t (0 : Fin 2) * 8000 + r.val < 800000 := by omega
  have hemb : ((cfg1.win 2).blk t).view.emb (ix2 r d) = ix2 (⟨win1_2.index t (0 : Fin 2) * 8000 + r.val, hn⟩ : Fin 800000) d := by
    funext a; apply Fin.ext
    match a with
    | ⟨0, _⟩ => show win1_2.index t (0 : Fin 2) * 8000 + 1 * r.val = win1_2.index t (0 : Fin 2) * 8000 + r.val; omega
    | ⟨1, _⟩ => show win1_2.index t (1 : Fin 2) * 128 + 1 * d.val = d.val; omega
  show k1_pay1 (iblk1 V c 0 t) (iblk1 V c 1 t) (ix2 r d)
    = scaleRows (V c main_v9) (V c main_v10) (((cfg1.win 2).blk t).view.emb (ix2 r d))
  rw [hemb]
  refine msg_entry (V c main_v9) (V c main_v10) (iblk1 V c 0 t) (iblk1 V c 1 t) r d _ ?_ ?_
  · show V c main_v9 (((cfg1.win 0).blk t).view.emb (ix2 r d)) = V c main_v9 _
    refine congrArg (V c main_v9) (funext fun a => Fin.ext ?_)
    match a with
    | ⟨0, _⟩ => show win1_0.index t (0 : Fin 2) * 8000 + 1 * r.val = win1_2.index t (0 : Fin 2) * 8000 + r.val; omega
    | ⟨1, _⟩ => show win1_0.index t (1 : Fin 2) * 128 + 1 * d.val = d.val; omega
  · show V c main_v10 (((cfg1.win 1).blk t).view.emb (ix2 r (0 : Fin 1))) = V c main_v10 _
    refine congrArg (V c main_v10) (funext fun a => Fin.ext ?_)
    match a with
    | ⟨0, _⟩ => show win1_1.index t (0 : Fin 2) * 8000 + 1 * r.val = win1_2.index t (0 : Fin 2) * 8000 + r.val; omega
    | ⟨1, _⟩ => show win1_1.index t (1 : Fin 2) * 1 + 1 * 0 = 0; omega

/-! ## The blocks tile the array -/

/-- An index of the output array is in point `t`'s block iff each coordinate is in the block's range. -/
theorem mem_msg_block (t : Fin cfg1.N) (i : S800000x128.Idx) :
    i ∈ ((cfg1.win 2).blk t).view.set ↔ ∀ a : Fin 2, win1_2.index t a * S8000x128.size a ≤ (i a).val
      ∧ (i a).val < win1_2.index t a * S8000x128.size a + S8000x128.size a := by
  show i ∈ ((View.whole main_v11).slice (win1_2.rect t)).set ↔ _
  rw [View.set_slice_whole, Rect.mem_set_unit]
  exact Iff.rfl

/-- Edge `e` lies in the block of point `e / 8000`, which is written back. -/
theorem msg_cover (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  obtain ⟨t, ht⟩ := index_onto ⟨(i 0).val / 8000, by omega⟩
  have q0 : win1_2.index t (0 : Fin 2) = (i 0).val / 8000 := congrFun ht 0
  have q1 : win1_2.index t (1 : Fin 2) = 0 := congrFun ht 1
  refine ⟨t, flush1_2 t, ?_⟩
  rw [mem_msg_block]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-! ## The array after the region -/

/-- After the region the output array is `scaleRows` of the two operand arrays as the region found them. -/
theorem msg_final (c : Dev nD) : (dat1 V c).arrAt 2 cfg1.N = scaleRows (V c main_v9) (V c main_v10) :=
  (dat1 V c).arrAt_eq_of_cover 2 (scaleRows (V c main_v9) (V c main_v10)) (fun t _ => msg_flushed V c t) msg_cover

end Cert.KernelIdeal.ScaleRegion

end
-- ==== Proof.KernelValue.lean ====
/-
  The kernel program's result at the extended reals, as one function of its launch arguments.

  Reading the boundaries back from the result: the result is `aggregate` of the first region's second
  output, the second region's output and the destination indices; the second region's output is
  `scaleRows` of its operands, which are the gather of the first region's first output at the wrapped
  source indices and the edge weights as a column; the first region's outputs are `lin` and `linBias` of
  the features, the transposed weight matrices and the bias.
-/
import proofs.«123658_j10264971837830_1_alg».proof.Proof.KernelLaunch
import proofs.«123658_j10264971837830_1_alg».proof.Proof.Boundaries
import proofs.«123658_j10264971837830_1_alg».proof.Proof.LinearRegion
import proofs.«123658_j10264971837830_1_alg».proof.Proof.ScaleRegion

set_option maxRecDepth 16384

noncomputable section

namespace Cert.KernelIdeal.KernelValue

open Cert.KernelIdeal Cert.KernelIdeal.Gen Cert.KernelIdeal.Boundaries Cert.Spec
open Idealize.ShloMosaic Idealize.ShloMosaic.TcCoe Idealize.SL.Sem

variable (m : (ℓ : Loc nD τ sig) → Buf (Elt Ideal) ℓ) (ρ : Dev nD → PrngReg)

/-- The result buffer's contents at the last boundary, in the specification's functions of the launch
    arguments. -/
theorem result_spec (c : Dev nD) :
    W5 m ρ c (Proc.devRef .tc main_v24)
      = aggregate (F := Ideal) (linBias (m ((c.tc : Thread nD τ).loc main_arg0)) (transpose S128x128 [1, 0] (m ((c.tc : Thread nD τ).loc main_arg5)) transposes_S128x128_S128x128_1_0) (m ((c.tc : Thread nD τ).loc main_arg6)))
          (scaleRows (Host.gather gather_S50000x128_S800000x1_S800000x128_1_0_n_n_0_1_1128
            (lin (m ((c.tc : Thread nD τ).loc main_arg0)) (transpose S128x128 [1, 0] (m ((c.tc : Thread nD τ).loc main_arg4)) transposes_S128x128_S128x128_1_0)) (wrapped (F := Ideal) (m ((c.tc : Thread nD τ).loc main_arg1))))
            (shapeCast S800000x1 (m ((c.tc : Thread nD τ).loc main_arg3)) shapeCasts_S800000_S800000x1))
          (m ((c.tc : Thread nD τ).loc main_arg2)) := by
  rw [result_last, self_exit, msg_exit, dst_exit, ScaleRegion.msg_final, LinearRegion.self_final,
    gathered_entry, weights_entry, LinearRegion.neigh_final, feat_entry, bias_entry, neigh_matrix_entry,
    self_matrix_entry]

/-- Every weakly fair execution of the kernel program terminates with the result at that function of the
    launch arguments, and the arguments unchanged. -/
theorem run_spec :
    θ_run defs (onTc (τ := τ) (main (F := Ideal))) ⟨m, fun _ => 0, ρ⟩ fun r => ∀ c : Dev nD,
      r.2.mem ((c.tc : Thread nD τ).loc main_v24)
        = aggregate (F := Ideal) (linBias (m ((c.tc : Thread nD τ).loc main_arg0)) (transpose S128x128 [1, 0] (m ((c.tc : Thread nD τ).loc main_arg5)) transposes_S128x128_S128x128_1_0) (m ((c.tc : Thread nD τ).loc main_arg6)))
          (scaleRows (Host.gather gather_S50000x128_S800000x1_S800000x128_1_0_n_n_0_1_1128
            (lin (m ((c.tc : Thread nD τ).loc main_arg0)) (transpose S128x128 [1, 0] (m ((c.tc : Thread nD τ).loc main_arg4)) transposes_S128x128_S128x128_1_0)) (wrapped (F := Ideal) (m ((c.tc : Thread nD τ).loc main_arg1))))
            (shapeCast S800000x1 (m ((c.tc : Thread nD τ).loc main_arg3)) shapeCasts_S800000_S800000x1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_spec m ρ c), (h c).2⟩)
    (Cert.KernelIdeal.Launched.run_result (F := Ideal) m ρ)

end Cert.KernelIdeal.KernelValue

end
-- ==== Proof.ReferenceSide.lean ====
/-
  The reference program read at the extended reals.  Its run ends with the result array at the composed
  term of its host operations applied to the argument arrays; that term is the shared tail `aggregate`
  (messages summed into destination rows, divided by the clamped in-degree, plus the node's own term)
  of
    * the features times the transposed self weights, plus the bias broadcast to every row: `linBias`;
    * the features times the transposed neighbour weights (`lin`), gathered at the wrapped source
      indices, each row times its edge's weight: `scaleRows` of the gather and the weight column;
    * the destination indices.
  The two matrix products are the host's `dot_general`; the weight column reaches the product through
  two broadcasts where the kernel program reshapes it, and at an entry both are the edge's weight.
-/
import proofs.«123658_j10264971837830_1_alg».proof.Defs
import proofs.«123658_j10264971837830_1_alg».proof.Proof.Gen.ReferenceIdeal.Run
import proofs.«123658_j10264971837830_1_alg».proof.Proof.Spec

noncomputable section

namespace Cert.ReferenceIdeal.RefValue

open Cert.ReferenceIdeal Cert.ReferenceIdeal.Gen Cert.Spec
open Idealize.ShloMosaic Idealize.ShloMosaic.TcCoe Idealize.SL.Sem

section AnyFloat
variable {F : FTy → Type} [FloatOps F]

/-- Messages summed into their destination rows, each row divided by the larger of its in-degree and one,
    plus the node's own term. -/
def aggregate (selfOut : (⟨S50000x128, .f32⟩ : BufTy).Contents (Elt F)) (msg : (⟨S800000x128, .f32⟩ : BufTy).Contents (Elt F))
    (dst : (⟨S800000, .i32⟩ : BufTy).Contents (Elt F)) : (⟨S50000x128, .f32⟩ : BufTy).Contents (Elt F) :=
  addf selfOut (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) msg) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))))))

/-- The source indices as the gather takes them: a negative index wrapped once around the node count, as
    a column. -/
def wrapped (src : (⟨S800000, .i32⟩ : BufTy).Contents (Elt F)) : (⟨S800000x1, .i32⟩ : BufTy).Contents (Elt F) :=
  (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))

end AnyFloat

/-- The reference's products have the dimension numbers of a plain rows-by-columns product. -/
theorem dims_plain : dot_S50000x128_S128x128_S50000x128_1_0_0_1_n_n = DotDims.plain 50000 128 128 := rfl

/-- The run's result term, of any argument arrays, in the specification's functions. -/
theorem result_spec (hcol : EdgeVec.ShapeCasts EdgeCol)
    (a0 : FVec Ideal S50000x128 .f32) (a1 a2 : IVec S800000 32) (a3 : FVec Ideal S800000 .f32)
    (a4 a5 : FVec Ideal S128x128 .f32) (a6 : FVec Ideal S128 .f32) :
    addf (addf (Host.dotGeneral dot_S50000x128_S128x128_S50000x128_1_0_0_1_n_n none a0 (transpose S128x128 [1, 0] a5 transposes_S128x128_S128x128_1_0)) (broadcastInDim S50000x128 ![0, 1] bcast_S1x128_S50000x128_0_1 (broadcastInDim S1x128 ![1] bcast_S128_S1x128_1 a6))) (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 a2) (mulf (Host.gather gather_S50000x128_S800000x1_S800000x128_1_0_n_n_0_1_1128 (Host.dotGeneral dot_S50000x128_S128x128_S50000x128_1_0_0_1_n_n none a0 (transpose S128x128 [1, 0] a4 transposes_S128x128_S128x128_1_0)) (broadcastInDim S800000x1 ![0] bcast_S800000_S800000x1_0 (select (cmpi .slt a1 (broadcastInDim S800000 ![] bcast_S_S800000 (constantI S_ 32 0#32))) (addi a1 (broadcastInDim S800000 ![] bcast_S_S800000 (constantI S_ 32 50000#32))) a1))) (broadcastInDim S800000x128 ![0, 1] bcast_S800000x1_S800000x128_0_1 (broadcastInDim S800000x1 ![0] bcast_S800000_S800000x1_0 a3)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 a2) (broadcastInDim S800000 ![] bcast_S_S800000 (constant S_ .f32 0x3F800000#32))) (broadcastInDim S50000 ![] bcast_S_S50000 (constant S_ .f32 0x3F800000#32))))))
      = aggregate (F := Ideal) (linBias a0 (transpose S128x128 [1, 0] a5 transposes_S128x128_S128x128_1_0) a6)
          (scaleRows (Host.gather gather_S50000x128_S800000x1_S800000x128_1_0_n_n_0_1_1128
            (lin a0 (transpose S128x128 [1, 0] a4 transposes_S128x128_S128x128_1_0)) (wrapped (F := Ideal) a1)) (shapeCast EdgeCol a3 hcol))
          a2 := by
  rw [linBias_eq a0 _ a6 bcast_S128_S1x128_1 bcast_S1x128_S50000x128_0_1,
    scaleRows_eq _ a3 hcol bcast_S800000_S800000x1_0 bcast_S800000x1_S800000x128_0_1,
    ← dotGeneral_eq_lin _ dims_plain, ← dotGeneral_eq_lin _ dims_plain]
  rfl

variable (m : (ℓ : Loc nD τ sig) → Buf (Elt Ideal) ℓ) (ρ : Dev nD → PrngReg)

/-- Every weakly fair execution of the reference terminates with the result at that function of the launch
    arguments, and the arguments unchanged. -/
theorem run_spec (hcol : EdgeVec.ShapeCasts EdgeCol) :
    θ_run defs (onTc (τ := τ) (main (F := Ideal))) ⟨m, fun _ => 0, ρ⟩ fun r => ∀ c : Dev nD,
      r.2.mem ((c.tc : Thread nD τ).loc main_v29)
        = aggregate (F := Ideal) (linBias (m ((c.tc : Thread nD τ).loc main_arg0)) (transpose S128x128 [1, 0] (m ((c.tc : Thread nD τ).loc main_arg5)) transposes_S128x128_S128x128_1_0) (m ((c.tc : Thread nD τ).loc main_arg6)))
          (scaleRows (Host.gather gather_S50000x128_S800000x1_S800000x128_1_0_n_n_0_1_1128
            (lin (m ((c.tc : Thread nD τ).loc main_arg0)) (transpose S128x128 [1, 0] (m ((c.tc : Thread nD τ).loc main_arg4)) transposes_S128x128_S128x128_1_0)) (wrapped (F := Ideal) (m ((c.tc : Thread nD τ).loc main_arg1)))) (shapeCast EdgeCol (m ((c.tc : Thread nD τ).loc main_arg3)) hcol))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_spec hcol _ _ _ _ _ _ _), (h c).2⟩)
    (Cert.ReferenceIdeal.Value.run (F := Ideal) m ρ)

end Cert.ReferenceIdeal.RefValue

end
-- ==== Proof.lean ====
/-
  A mean-aggregating message-passing layer: the kernel program against its reference, over the extended
  reals.

  Both programs compute, for node features `x`, edge sources and destinations, edge weights and two weight
  matrices with a bias,
      out = (x · Wselfᵀ + b) + (Σ over edges into a node of (x · Wneighᵀ)[src] · weight) / max (in-degree, 1).
  The kernel program forms `x · Wneighᵀ` and `x · Wselfᵀ + b` in a first region, ten blocks of 5000 node rows,
  and the per-edge products in a second region, a hundred blocks of 8000 edges; the reference forms them with
  the host's own product and multiply.  The gather between the regions and the whole aggregation after them
  are the same host operations in both programs and are carried as one function, never opened.

  So the certificate shows three array equations and nothing else about arithmetic: a block product summed
  over the 128 contracted features is the entry of the whole product; the same plus the bias; a row times
  its edge's weight, the weight read from a reshaped column in one program and from a twice-broadcast vector
  in the other.  The sums on the two sides are the same sums term by term, so finiteness of the inputs is
  never used.  Rounding the matrix operands to a shorter float format is the identity on the extended reals,
  and the idealization rewrote nothing, so `preserves` is `True`.

  The three frames: both kernel programs' are the generated launch over their five segments; the
  reference's is its generated run with the result dropped.
-/
import proofs.«123658_j10264971837830_1_alg».proof.Defs
import proofs.«123658_j10264971837830_1_alg».proof.Proof.Gen.Kernel
import proofs.«123658_j10264971837830_1_alg».proof.Proof.Gen.Kernel.Frame
import proofs.«123658_j10264971837830_1_alg».proof.Proof.Gen.KernelIdeal
import proofs.«123658_j10264971837830_1_alg».proof.Proof.Gen.KernelIdeal.Frame
import proofs.«123658_j10264971837830_1_alg».proof.Proof.Gen.ReferenceIdeal
import proofs.«123658_j10264971837830_1_alg».proof.Proof.Gen.ReferenceIdeal.Run
import proofs.«123658_j10264971837830_1_alg».proof.Proof.Gen.Pre_finite_inputs
import proofs.«123658_j10264971837830_1_alg».proof.Proof.KernelValue
import proofs.«123658_j10264971837830_1_alg».proof.Proof.ReferenceSide
import Idealize.ShloMosaic.Adequacy
import Idealize.ShloMosaic.Init

noncomputable section

namespace Cert.Proof

open Idealize.ShloMosaic Idealize.SL.Sem

/-- The kernel program as printed runs and leaves its arguments: the generated launch. -/
theorem frame_kernel : Cert.frame_Kernel := fun m ρ _ => Cert.Kernel.Gen.frame m ρ

/-- The same for its reading at the extended reals. -/
theorem frame_kernelIdeal : Cert.frame_KernelIdeal := fun m ρ _ => Cert.KernelIdeal.Gen.frame m ρ

/-- The reference runs and leaves its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at ONE function of the
    arguments: the shared aggregation of `linBias`, of `scaleRows` of the gathered `lin`, and of the
    destination indices.  The two statements differ only in which program's names spell the shared host
    operations. -/
theorem algebraic : Cert.algebraic_KernelIdeal_ReferenceIdeal := by
  intro m ρ m' ρ' _ hagree
  refine ⟨_, Cert.KernelIdeal.KernelValue.run_spec m ρ, ?_⟩
  refine (θ_run Cert.ReferenceIdeal.defs _ _).mono (fun _ h c => ⟨(h c).1.trans ?_, (h c).2⟩)
    (Cert.ReferenceIdeal.RefValue.run_spec m' ρ' Cert.KernelIdeal.Facts₀.shapeCasts_S800000_S800000x1)
  obtain ⟨h0, h1, h2, h3, h4, h5, h6⟩ := hagree c
  rw [h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
